-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024 : Shape := ⟨1, ![1024]⟩
abbrev S1024x2048 : Shape := ⟨2, ![1024, 2048]⟩
abbrev S2048 : Shape := ⟨1, ![2048]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8x4096x1024 .f32) (main_arg1 : FVec F S1024 .f32) (main_arg2 : FVec F S1024 .f32) (main_arg3 : FVec F S1024x2048 .f32) (main_arg4 : FVec F S2048 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_v13 main_v16
-- ==== Kernel.lean ====
abbrev S8x4096x1024 : Shape := ⟨3, ![8, 4096, 1024]⟩
abbrev S1024 : Shape := ⟨1, ![1024]⟩
abbrev S1024x2048 : Shape := ⟨2, ![1024, 2048]⟩
abbrev S2048 : Shape := ⟨1, ![2048]⟩
abbrev S32768x1024 : Shape := ⟨2, ![32768, 1024]⟩
abbrev S1x1024 : Shape := ⟨2, ![1, 1024]⟩
abbrev S1x2048 : Shape := ⟨2, ![1, 2048]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩

abbrev nBuf : Space → Nat
  | .hbm => 12
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S32768x1024, .f32⟩
  | .hbm, ⟨6, _⟩ => ⟨S1x1024, .f32⟩
  | .hbm, ⟨7, _⟩ => ⟨S1x1024, .f32⟩
  | .hbm, ⟨8, _⟩ => ⟨S1x2048, .f32⟩
  | .hbm, ⟨9, _⟩ => ⟨S1024x2048, .bf16⟩
  | .hbm, ⟨10, _⟩ => ⟨S32768x1024, .f32⟩
  | .hbm, ⟨11, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1x2048, .f32⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x4096x1024_S32768x1024 : S8x4096x1024.ShapeCasts S32768x1024
  shapeCasts_S1024_S1x1024 : S1024.ShapeCasts S1x1024
  shapeCasts_S2048_S1x2048 : S2048.ShapeCasts S1x2048
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  shapeCasts_S32768x1024_S8x4096x1024 : S32768x1024.ShapeCasts S8x4096x1024
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S1x1x2048 : Shape := ⟨3, ![1, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S8x4096x2048, .f32⟩
  | .hbm, ⟨35, _⟩ => ⟨S1x1x2048, .f32⟩
  | .hbm, ⟨36, _⟩ => ⟨S8x4096x2048, .f32⟩
  | .hbm, ⟨37, _⟩ => ⟨S8x4096x2048, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  slices_S8x4096x2048_S8x4096x1024_0_0_0 : S8x4096x2048.Slices ![0, 0, 0] S8x4096x1024
  slices_S8x4096x2048_S8x4096x1024_0_0_1024 : S8x4096x2048.Slices ![0, 0, 1024] S8x4096x1024
  bcast_S_S8x4096x1024 : S_.BroadcastsInDim S8x4096x1024 (![] : Fin 0 → Fin S8x4096x1024.rank)
  dot_S8x4096x1024_S1024x2048_S8x4096x2048_2_0_01_1_n_n_wf : DotDims.WF S8x4096x1024 S1024x2048 S8x4096x2048 [2] [0] [0, 1] [1] [] []

variable [Facts₀]

def dot_S8x4096x1024_S1024x2048_S8x4096x2048_2_0_01_1_n_n : DotDims S8x4096x1024 S1024x2048 S8x4096x2048 where
  lhsContracting := [2]
  rhsContracting := [0]
  lhsNonContracting := [0, 1]
  rhsNonContracting := [1]
  lhsBatch := []
  rhsBatch := []
  wf := dot_S8x4096x1024_S1024x2048_S8x4096x2048_2_0_01_1_n_n_wf

class Facts : Prop extends Facts₀ where

variable [Facts]
-- ==== Proof.RowSpec.lean ====
/-
  One row of the gated block, as a function on the extended reals.

  For a row `xr` of 1024 entries, a scale `g`, a shift `bt`, a 1024 × 2048 matrix `W` and a bias `b`:
    mean      = (∑ₖ xr k) / 1024
    cen k     = xr k − mean
    var       = (∑ₖ cen k · cen k) / 1024
    nrm k     = cen k · (var + ε)^(−1/2) · g k + bt k
    proj e    = (∑ₖ nrm k · W k e) + b e
    out j     = xr j + proj j · logistic (proj (1024 + j))
  The divisor 1024 and ε are kept as the float patterns both programs spell; they are never evaluated.
-/
import Idealize.ShloMosaic.PureOps.Ideal
import Idealize.ShloMosaic.Lib.ValueIdx

noncomputable section

open scoped BigOperators

namespace Cert.RowSpec

open Idealize.ShloMosaic

/-- The divisor of both means: the pattern of 1024.0. -/
def cN : EReal := Ideal.ofBits .f32 0x44800000#32
/-- The variance's offset ε: the pattern both programs add. -/
def cEps : EReal := Ideal.ofBits .f32 0x3727C5AC#32

/-- Column `j` of the value half and of the gate half of the projection. -/
def lo (j : Fin 1024) : Fin 2048 := ⟨j.val, by have := j.isLt; omega⟩
def hi (j : Fin 1024) : Fin 2048 := ⟨1024 + j.val, by have := j.isLt; omega⟩

section
variable (xr g bt : Fin 1024 → EReal) (W : Fin 1024 → Fin 2048 → EReal) (b : Fin 2048 → EReal)

/-- The row's mean. -/
def mean : EReal := Ideal.div (∑ k : Fin 1024, xr k) cN
/-- The centred row. -/
def cen (k : Fin 1024) : EReal := xr k - mean xr
/-- The row's variance (mean of the centred squares). -/
def var : EReal := Ideal.div (∑ k : Fin 1024, cen xr k * cen xr k) cN
/-- The reciprocal standard deviation. -/
def rstd : EReal := Ideal.rsqrt (var xr + cEps)
/-- The normalised, scaled and shifted row. -/
def nrm (k : Fin 1024) : EReal := cen xr k * rstd xr * g k + bt k
/-- The projection to 2048 columns, with its bias. -/
def proj (e : Fin 2048) : EReal := (∑ k : Fin 1024, nrm xr g bt k * W k e) + b e
/-- The gated result added back to the row. -/
def out (j : Fin 1024) : EReal :=
  xr j + proj xr g bt W b (lo j) * Ideal.logistic (proj xr g bt W b (hi j))

end

/-- The row function depends only on the values of its arguments. -/
theorem out_congr {xr xr' g g' bt bt' : Fin 1024 → EReal} {W W' : Fin 1024 → Fin 2048 → EReal} {b b' : Fin 2048 → EReal}
    {j j' : Fin 1024} (hx : xr = xr') (hg : g = g') (hbt : bt = bt') (hW : W = W') (hb : b = b') (hj : j = j') :
    out xr g bt W b j = out xr' g' bt' W' b' j' := by
  subst hx hg hbt hW hb hj; rfl

/-- The whole result: entry (p, q, j) of the 8 × 4096 × 1024 array is the row function of row (p, q), at j. -/
def blockOut (x : (⟨3, ![8, 4096, 1024]⟩ : Shape).Idx → EReal) (g bt : (⟨1, ![1024]⟩ : Shape).Idx → EReal)
    (W : (⟨2, ![1024, 2048]⟩ : Shape).Idx → EReal) (b : (⟨1, ![2048]⟩ : Shape).Idx → EReal) :
    (⟨3, ![8, 4096, 1024]⟩ : Shape).Idx → EReal :=
  fun i => out (fun k => x (ValueIdx.ix3 (i 0) (i 1) k)) (fun k => g (ValueIdx.ix1 k)) (fun k => bt (ValueIdx.ix1 k))
    (fun k e => W (ValueIdx.ix2 k e)) (fun e => b (ValueIdx.ix1 e)) (i 2)

/-- The pattern of 1.0 is the number one. -/
theorem ofBits_one : Ideal.ofBits .f32 0x3F800000#32 = 1 := by
  simp [Ideal.ofBits, Ideal.ieee, -EReal.coe_mul]; norm_num

/-- The pattern of +0.0 is the number zero. -/
theorem ofBits_zero : Ideal.ofBits .f32 0x00000000#32 = 0 := by
  simp [Ideal.ofBits, Ideal.ieee]

/-- The logistic function spelt with a quotient, an exponential and the pattern of 1.0. -/
theorem logistic_spelt (p : EReal) :
    Ideal.div (Ideal.ofBits .f32 0x3F800000#32) (Ideal.ofBits .f32 0x3F800000#32 + Ideal.exp (-p)) = Ideal.logistic p := by
  rw [ofBits_one]; rfl

end Cert.RowSpec

end
-- ==== Proof.RefRow.lean ====
/-
  The reference program's result, read at an entry (p, q, j): it is the row function of RowSpec.lean applied to row
  (p, q) of the input, entry j. Each stage of the reference is read at an index and identified with the row function's
  stage of the same name: the mean, the centred row, the variance, the normalised row, the projection and the result.
-/
import proofs.«110044_j53446573032203_1_alg».proof.Proof.Gen.ReferenceIdeal.Read
import proofs.«110044_j53446573032203_1_alg».proof.Proof.RowSpec

noncomputable section

open scoped BigOperators

namespace Cert.RefRow

open Cert.ReferenceIdeal Cert.ReferenceIdeal.Read Idealize.ShloMosaic Idealize.ShloMosaic.ValueIdx Cert.RowSpec

variable (x : (⟨S8x4096x1024, .f32⟩ : BufTy).Contents (Elt Ideal))
  (g bt : (⟨S1024, .f32⟩ : BufTy).Contents (Elt Ideal))
  (W : (⟨S1024x2048, .f32⟩ : BufTy).Contents (Elt Ideal))
  (b : (⟨S2048, .f32⟩ : BufTy).Contents (Elt Ideal))
  (p : Fin 8) (q : Fin 4096)

/-- Row (p, q) of the input. -/
abbrev row : Fin 1024 → EReal := fun k => x (ix3 p q k)
/-- The scale, the shift, the matrix and the bias as plain functions of their coordinates. -/
abbrev gv : Fin 1024 → EReal := fun k => g (ix1 k)
abbrev btv : Fin 1024 → EReal := fun k => bt (ix1 k)
abbrev Wv : Fin 1024 → Fin 2048 → EReal := fun k e => W (ix2 k e)
abbrev bv : Fin 2048 → EReal := fun e => b (ix1 e)

/-- The reference's mean at (p, q) is the row's mean. -/
theorem mean_eq (z : Fin 1) : val_main_v3 (F := Ideal) x (ix3 p q z) = mean (row x p q) := by
  rw [val_main_v3_apply, val_main_v1_apply, val_main_v0_apply, val_main_v2_apply, val_main_cst_0_apply, val_main_cst_apply]
  simp only [Ideal.hostDivf_def, Ideal.ofBits_def, RowSpec.ofBits_zero, zero_add]
  unfold mean cN
  refine congrArg (Ideal.div · _) (Finset.sum_congr rfl fun k _ => congrArg x ?_)
  funext a; apply Fin.ext
  match a with
  | ⟨0, _⟩ => rfl
  | ⟨1, _⟩ => rfl
  | ⟨2, _⟩ => rfl

/-- The reference's centred input at (p, q, k), in its first spelling, is the centred row. -/
theorem cen_eq (k : Fin 1024) : val_main_v5 (F := Ideal) x (ix3 p q k) = cen (row x p q) k := by
  rw [val_main_v5_apply, val_main_v4_apply]
  have e : idx_main_v4 (ix3 p q k) = ix3 p q (0 : Fin 1) := by
    funext a; apply Fin.ext
    match a with
    | ⟨0, _⟩ => rfl
    | ⟨1, _⟩ => rfl
    | ⟨2, _⟩ => rfl
  rw [e, mean_eq]; rfl

/-- And in its second spelling. -/
theorem cen_eq' (k : Fin 1024) : val_main_v12 (F := Ideal) x (ix3 p q k) = cen (row x p q) k := by
  rw [val_main_v12_apply, val_main_v11_apply]
  have e : idx_main_v11 (ix3 p q k) = ix3 p q (0 : Fin 1) := by
    funext a; apply Fin.ext
    match a with
    | ⟨0, _⟩ => rfl
    | ⟨1, _⟩ => rfl
    | ⟨2, _⟩ => rfl
  rw [e, mean_eq]; rfl

/-- The reference's reciprocal standard deviation at (p, q) is the row's. -/
theorem inv_eq (z : Fin 1) : val_main_v15 (F := Ideal) x (ix3 p q z) = rstd (row x p q) := by
  rw [val_main_v15_apply, val_main_v14_apply, val_main_v10_apply, val_main_v8_apply, val_main_v7_apply,
    val_main_v9_apply, val_main_cst_2_apply, val_main_cst_1_apply, val_main_v13_apply, val_main_cst_3_apply]
  simp only [Ideal.hostDivf_def, Ideal.ofBits_def, Ideal.hostUnary_rsqrt_def, RowSpec.ofBits_zero, zero_add]
  unfold rstd var cN cEps
  refine congrArg Ideal.rsqrt (congrArg (· + _) (congrArg (Ideal.div · _) (Finset.sum_congr rfl fun k _ => ?_)))
  have e : idx_main_v7 (idx_main_v8 (ix3 p q z)) k = ix3 p q k := by
    funext a; apply Fin.ext
    match a with
    | ⟨0, _⟩ => rfl
    | ⟨1, _⟩ => rfl
    | ⟨2, _⟩ => rfl
  rw [e, val_main_v6_apply, cen_eq]; rfl

/-- The reference's normalised, scaled and shifted input at (p, q, k) is the row's. -/
theorem nrm_eq (k : Fin 1024) : val_main_v23 (F := Ideal) x g bt (ix3 p q k) = nrm (row x p q) (gv g) (btv bt) k := by
  rw [val_main_v23_apply, val_main_v20_apply, val_main_v17_apply, val_main_v16_apply, val_main_v19_apply,
    val_main_v18_apply, val_main_v22_apply, val_main_v21_apply]
  have e16 : idx_main_v16 (ix3 p q k) = ix3 p q (0 : Fin 1) := by
    funext a; apply Fin.ext
    match a with
    | ⟨0, _⟩ => rfl
    | ⟨1, _⟩ => rfl
    | ⟨2, _⟩ => rfl
  have e18 : idx_main_v18 (idx_main_v19 (ix3 p q k)) = ix1 k := by
    funext a; apply Fin.ext
    match a with
    | ⟨0, _⟩ => rfl
  have e21 : idx_main_v21 (idx_main_v22 (ix3 p q k)) = ix1 k := by
    funext a; apply Fin.ext
    match a with
    | ⟨0, _⟩ => rfl
  rw [e16, e18, e21, inv_eq, cen_eq']; rfl

/-- The reference's projection at (p, q, e) is the row's. -/
theorem proj_eq (e : Fin 2048) :
    val_main_v27 (F := Ideal) x g bt W b (ix3 p q e) = proj (row x p q) (gv g) (btv bt) (Wv W) (bv b) e := by
  rw [val_main_v27_apply, val_main_v24_apply, val_main_v26_apply, val_main_v25_apply]
  have e25 : idx_main_v25 (idx_main_v26 (ix3 p q e)) = ix1 e := by
    funext a; apply Fin.ext
    match a with
    | ⟨0, _⟩ => rfl
  rw [e25]
  unfold proj
  refine congrArg (· + _) (Finset.sum_congr rfl fun k _ => ?_)
  have el : lidx_main_v24 (ix3 p q e) k = ix3 p q k := by
    funext a; apply Fin.ext
    match a with
    | ⟨0, _⟩ => rfl
    | ⟨1, _⟩ => rfl
    | ⟨2, _⟩ => rfl
  have er : ridx_main_v24 (ix3 p q e) k = ix2 k e := by
    funext a; apply Fin.ext
    match a with
    | ⟨0, _⟩ => rfl
    | ⟨1, _⟩ => rfl
  rw [el, er, nrm_eq]

/-- The reference's result at (p, q, j) is the row function's. -/
theorem out_eq (j : Fin 1024) :
    val_main_v37 (F := Ideal) x g bt W b (ix3 p q j) = out (row x p q) (gv g) (btv bt) (Wv W) (bv b) j := by
  rw [val_main_v37_apply, val_main_v36_apply, val_main_v28_apply, val_main_v35_apply, val_main_v34_apply,
    val_main_cst_5_apply, val_main_v33_apply, val_main_v32_apply, val_main_cst_4_apply, val_main_v31_apply,
    val_main_v30_apply, val_main_v29_apply]
  have e28 : idx_main_v28 (ix3 p q j) = ix3 p q (lo j) := by
    funext a; apply Fin.ext
    match a with
    | ⟨0, _⟩ => rfl
    | ⟨1, _⟩ => rfl
    | ⟨2, _⟩ => rfl
  have e29 : idx_main_v29 (ix3 p q j) = ix3 p q (hi j) := by
    funext a; apply Fin.ext
    match a with
    | ⟨0, _⟩ => rfl
    | ⟨1, _⟩ => rfl
    | ⟨2, _⟩ => rfl
  rw [e28, e29, proj_eq, proj_eq]
  simp only [Ideal.hostDivf_def, Ideal.ofBits_def, Ideal.hostUnary_exp_def, Ideal.hostNegf_def]
  unfold out
  exact congrArg (_ + ·) (congrArg (_ * ·) (logistic_spelt _))

/-- The reference's result array is the whole-result function of the argument arrays. -/
theorem ref_eq : val_main_v37 (F := Ideal) x g bt W b = blockOut x g bt W b := by
  funext i
  obtain ⟨p, q, j, rfl⟩ : ∃ (p : Fin 8) (q : Fin 4096) (j : Fin 1024), i = ix3 p q j := ⟨i 0, i 1, i 2, eq_ix3 i⟩
  exact out_eq x g bt W b p q j

end Cert.RefRow

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.KernelRow.lean ====
/-
  The kernel body's stored value, read at an entry (a, j) of the 512 × 1024 block: it is the row function of
  RowSpec.lean applied to row a of the input block, entry j. The body's value is first cut into named stages (the mean
  column, the centred block, the variance column, the reciprocal standard deviation, the normalised block, the
  projection), each then read at an index and identified with the row function's stage of the same name. A change of
  float format is the identity on the extended reals, a lane sum is the sum over the row, and the matrix product into
  the zero accumulator is the sum over the contracted coordinate.
-/
import proofs.«110044_j53446573032203_1_alg».proof.Proof.Gen.KernelIdeal.Skeleton
import proofs.«110044_j53446573032203_1_alg».proof.Proof.RowSpec
import proofs.«110044_j53446573032203_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelRow

open Cert.KernelIdeal Cert.KernelIdeal.Gen Idealize.ShloMosaic Idealize.ShloMosaic.ValueIdx Cert.RowSpec

/-! ## Layout steps of the block, read at an index -/

/-- A lane sum of a 512 × 1024 block, at row `a`, is the sum over that row. -/
theorem rowSum (v : FVec Ideal S512x1024 .f32) (hacc : (0x00000000#32 : BitVec 32) = 0x00000000#32) (a : Fin 512) :
    multiReduction .add [1] S512 v 0x00000000#32 reduces_S512x1024_S512 (.inl rfl) hacc (ix1 a) = ∑ k : Fin 1024, v (ix2 a k) := by
  refine (Ideal.multiReduction_add_single v 0x00000000#32 reduces_S512x1024_S512 (.inl rfl) hacc (ix1 a)).trans ?_
  refine Finset.sum_congr rfl fun k _ => congrArg v ?_
  funext d; apply Fin.ext
  match d with
  | ⟨0, _⟩ => rfl
  | ⟨1, _⟩ => rfl

/-- A vector of 512 entries viewed as a column reads its entry `a` at (a, 0). -/
theorem col_apply (v : FVec Ideal S512 .f32) (a : Fin 512) (z : Fin 1) :
    shapeCast S512x1 v shapeCasts_S512_S512x1 (ix2 a z) = v (ix1 a) := by
  refine shapeCast_apply v _ (ix2 a z) (ix1 a) ?_
  rw [Shape.rowMajor_val_one, Shape.rowMajor_val_two]
  show a.val = a.val * 1 + z.val
  have := z.isLt; omega

/-- A column broadcast along the rows reads, at (a, k), the column's entry a. -/
theorem colBcast_apply (v : FVec Ideal S512x1 .f32) (a : Fin 512) (k : Fin 1024) :
    broadcastTo S512x1024 v broadcasts_S512x1_S512x1024 (ix2 a k) = v (ix2 a (0 : Fin 1)) := by
  refine broadcastTo_apply v _ (ix2 a k) (ix2 a (0 : Fin 1)) fun ax => ?_
  match ax with
  | ⟨0, _⟩ =>
    show a.val = if (512 : Nat) = 1 then 0 else a.val
    rw [if_neg (by decide)]
  | ⟨1, _⟩ =>
    show 0 = if (1 : Nat) = 1 then 0 else k.val
    rw [if_pos rfl]

/-- The logistic function acts entry by entry. -/
theorem logistic_apply {s : Shape} {φ : FTy} (v : FVec Ideal s φ) (i : s.Idx) : logistic v i = Ideal.logistic (v i) := rfl

/-! ## The body's value in named stages -/

section Stages
variable (x0 : Vec Ideal S512x1024 .f32) (x1 x2 : Vec Ideal S1x1024 .f32) (x3 : Vec Ideal S1024x2048 .bf16)
  (x4 : Vec Ideal S1x2048 .f32)

/-- The input block. -/
def kx : FVec Ideal S512x1024 .f32 := shapeCast S512x1024 x0 shapeCasts_S512x1024_S512x1024
/-- The column of row means. -/
def kmean : FVec Ideal S512x1 .f32 :=
  divf (shapeCast S512x1 (multiReduction .add [1] S512 (kx x0) 0x00000000#32 reduces_S512x1024_S512 (.inl rfl) rfl) shapeCasts_S512_S512x1)
    (broadcast S512x1 (Scalar.ofBits .f32 0x44800000#32))
/-- The centred block. -/
def kcen : FVec Ideal S512x1024 .f32 := subf (kx x0) (broadcastTo S512x1024 (kmean x0) broadcasts_S512x1_S512x1024)
/-- The column of row variances. -/
def kvar : FVec Ideal S512x1 .f32 :=
  divf (shapeCast S512x1 (multiReduction .add [1] S512 (mulf (kcen x0) (kcen x0)) 0x00000000#32 reduces_S512x1024_S512 (.inl rfl) rfl) shapeCasts_S512_S512x1)
    (broadcast S512x1 (Scalar.ofBits .f32 0x44800000#32))
/-- The column of reciprocal standard deviations. -/
def krstd : FVec Ideal S512x1 .f32 := rsqrt (addf (kvar x0) (broadcast S512x1 (Scalar.ofBits .f32 0x3727C5AC#32)))
/-- The normalised, scaled and shifted block. -/
def knrm : FVec Ideal S512x1024 .f32 :=
  addf (mulf (mulf (kcen x0) (broadcastTo S512x1024 (krstd x0) broadcasts_S512x1_S512x1024))
      (broadcastTo S512x1024 (shapeCast S1x1024 x1 shapeCasts_S1x1024_S1x1024 : FVec Ideal S1x1024 .f32) broadcasts_S1x1024_S512x1024))
    (broadcastTo S512x1024 (shapeCast S1x1024 x2 shapeCasts_S1x1024_S1x1024 : FVec Ideal S1x1024 .f32) broadcasts_S1x1024_S512x1024)
/-- The projection with its bias. -/
def kproj : FVec Ideal S512x2048 .f32 :=
  addf (matmul dot_S512x1024_S1024x2048_S512x2048_1_0_0_1_n_n none
      (truncf .bf16 (knrm x0 x1 x2) bitsLt_bf16_f32 : FVec Ideal S512x1024 .bf16)
      (shapeCast S1024x2048 x3 shapeCasts_S1024x2048_S1024x2048 : FVec Ideal S1024x2048 .bf16)
      (constant S512x2048 .f32 0x00000000#32 : FVec Ideal S512x2048 .f32))
    (broadcastTo S512x2048 (shapeCast S1x2048 x4 shapeCasts_S1x2048_S1x2048 : FVec Ideal S1x2048 .f32) broadcasts_S1x2048_S512x2048)

/-- The body's stored value is the input plus the value half of the projection times the logistic of the gate half. -/
theorem pay_stages : k0_pay1 (F := Ideal) x0 x1 x2 x3 x4
    = addf (kx x0) (mulf (extractStridedSlice S512x1024 ![0, 0] (kproj x0 x1 x2 x3 x4) slices_S512x2048_o0_0_S512x1024)
        (logistic (extractStridedSlice S512x1024 ![0, 1024] (kproj x0 x1 x2 x3 x4) slices_S512x2048_o0_1024_S512x1024))) := rfl

/-! ## Each stage at an index -/

variable (a : Fin 512)

/-- Row `a` of the input block, and the operands' rows and entries as plain functions. -/
abbrev row : Fin 1024 → EReal := fun k => x0 (ix2 a k)
abbrev gv : Fin 1024 → EReal := fun k => x1 (ix2 (0 : Fin 1) k)
abbrev btv : Fin 1024 → EReal := fun k => x2 (ix2 (0 : Fin 1) k)
abbrev Wv : Fin 1024 → Fin 2048 → EReal := fun k e => x3 (ix2 k e)
abbrev bv : Fin 2048 → EReal := fun e => x4 (ix2 (0 : Fin 1) e)

theorem kx_eq : kx x0 = x0 := shapeCast_self _ _

theorem kmean_apply (z : Fin 1) : kmean x0 (ix2 a z) = mean (row x0 a) := by
  unfold kmean
  rw [divf_apply, col_apply, rowSum, kx_eq]
  rfl

theorem kcen_apply (k : Fin 1024) : kcen x0 (ix2 a k) = cen (row x0 a) k := by
  unfold kcen
  rw [subf_apply, colBcast_apply, kmean_apply, kx_eq]
  rfl

theorem krstd_apply (z : Fin 1) : krstd x0 (ix2 a z) = rstd (row x0 a) := by
  unfold krstd kvar
  show Ideal.rsqrt (Ideal.div (shapeCast S512x1 _ shapeCasts_S512_S512x1 (ix2 a z)) _ + _) = _
  rw [col_apply, rowSum]
  simp only [mulf_apply, kcen_apply]
  rfl

theorem knrm_apply (k : Fin 1024) : knrm x0 x1 x2 (ix2 a k) = nrm (row x0 a) (gv x1) (btv x2) k := by
  unfold knrm
  rw [addf_apply, mulf_apply, mulf_apply, colBcast_apply, krstd_apply, kcen_apply,
    broadcastTo_1b_ab_apply, broadcastTo_1b_ab_apply, shapeCast_self, shapeCast_self]
  rfl

theorem kproj_apply (e : Fin 2048) :
    kproj x0 x1 x2 x3 x4 (ix2 a e) = proj (row x0 a) (gv x1) (btv x2) (Wv x3) (bv x4) e := by
  unfold kproj
  rw [addf_apply, broadcastTo_1b_ab_apply, shapeCast_self, shapeCast_self,
    Cert.LibDot.matmul_10_zero_apply _ rfl rfl rfl rfl rfl rfl]
  unfold proj
  refine congrArg (· + _) (Finset.sum_congr rfl fun k _ => ?_)
  rw [truncf_apply, knrm_apply]

/-- The body's stored value at (a, j) is the row function of row a of the input block, at j. -/
theorem pay_apply (j : Fin 1024) :
    k0_pay1 (F := Ideal) x0 x1 x2 x3 x4 (ix2 a j) = out (row x0 a) (gv x1) (btv x2) (Wv x3) (bv x4) j := by
  rw [pay_stages, addf_apply, mulf_apply, kx_eq,
    slice2_axis1_apply 0 _ _ a j (lo j) (Nat.zero_add _).symm]
  rw [logistic_apply, slice2_axis1_apply 1024 _ _ a j (hi j) rfl, kproj_apply, kproj_apply]
  rfl

end Stages

end Cert.KernelRow

end
-- ==== Proof.KernelRun.lean ====
/-
  The idealized kernel's run, read as a value: after the run the result array holds the whole-result function of
  RowSpec.lean of the argument arrays.

  The input is viewed as 32768 rows of 1024 entries; grid point t handles rows 512·t … 512·t + 511, with the scale,
  the shift, the matrix (its format changed, which is the identity on the extended reals) and the bias whole at every
  point. What point t writes back is the row function of each of its rows; the 64 blocks cover the 32768 rows, so the
  call's result array is the row function of every row; and the last view of that array as 8 × 4096 × 1024 reads row
  4096·p + q at (p, q).
-/
import proofs.«110044_j53446573032203_1_alg».proof.Proof.Gen.KernelIdeal.Frame
import proofs.«110044_j53446573032203_1_alg».proof.Proof.KernelRow
import Idealize.ShloMosaic.Lib.Pipeline.Value
import Idealize.ShloMosaic.Lib.StableHlo.Run

set_option maxRecDepth 16384

noncomputable section

open scoped BigOperators

namespace Cert.KernelRun

open Cert.KernelIdeal Cert.KernelIdeal.Gen Idealize.ShloMosaic Idealize.ShloMosaic.TcCoe Idealize.SL.Sem
open Idealize.ShloMosaic.ValueIdx Cert.RowSpec
open Idealize.ShloMosaic.Pipeline (Dat)

variable (m : (ℓ : Loc nD τ sig) → Buf (Elt Ideal) ℓ) (ρ : Dev nD → PrngReg)

/-! ## The arrays the call finds -/

theorem V_v0 (c : Dev nD) : (V m c main_v0 : S32768x1024.Idx → EReal)
    = shapeCast S32768x1024 (m ((c : Thread nD τ).loc main_arg0)) shapeCasts_S8x4096x1024_S32768x1024 := by
  show StableHlo.after hostOps0 (fun b => m (c, b)) (Proc.devRef .tc main_v0) = _
  after_results; rfl

theorem V_v1 (c : Dev nD) : (V m c main_v1 : S1x1024.Idx → EReal)
    = shapeCast S1x1024 (m ((c : Thread nD τ).loc main_arg1)) shapeCasts_S1024_S1x1024 := by
  show StableHlo.after hostOps0 (fun b => m (c, b)) (Proc.devRef .tc main_v1) = _
  after_results; rfl

theorem V_v2 (c : Dev nD) : (V m c main_v2 : S1x1024.Idx → EReal)
    = shapeCast S1x1024 (m ((c : Thread nD τ).loc main_arg2)) shapeCasts_S1024_S1x1024 := by
  show StableHlo.after hostOps0 (fun b => m (c, b)) (Proc.devRef .tc main_v2) = _
  after_results; rfl

theorem V_v3 (c : Dev nD) : (V m c main_v3 : S1x2048.Idx → EReal)
    = shapeCast S1x2048 (m ((c : Thread nD τ).loc main_arg4)) shapeCasts_S2048_S1x2048 := by
  show StableHlo.after hostOps0 (fun b => m (c, b)) (Proc.devRef .tc main_v3) = _
  after_results; rfl

theorem V_v4 (c : Dev nD) : (V m c main_v4 : S1024x2048.Idx → EReal) = m ((c : Thread nD τ).loc main_arg3) := by
  show StableHlo.after hostOps0 (fun b => m (c, b)) (Proc.devRef .tc main_v4) = _
  after_results; rfl

/-! ## What the call's result array holds -/

/-- The row function of every row of a 32768 × 1024 array, with the operands as the call stages them. -/
def rows (X : S32768x1024.Idx → EReal) (g bt : S1x1024.Idx → EReal) (W : S1024x2048.Idx → EReal) (b : S1x2048.Idx → EReal) :
    S32768x1024.Idx → EReal :=
  fun i => out (fun k => X (ix2 (i 0) k)) (fun k => g (ix2 (0 : Fin 1) k)) (fun k => bt (ix2 (0 : Fin 1) k))
    (fun k e => W (ix2 k e)) (fun e => b (ix2 (0 : Fin 1) e)) (i 1)

theorem hz : (![0, 0] : Fin 2 → Nat) = fun _ => 0 := funext fun a => by fin_cases a <;> rfl

/-- The index maps over the grid: the input's and the result's blocks move together down the rows, one block of 512
    rows per point, and every other window stays at its one block. -/
theorem idx_facts : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The body's stored value at an index of the block. -/
theorem pay_at (x0 : Vec Ideal S512x1024 .f32) (x1 x2 : Vec Ideal S1x1024 .f32) (x3 : Vec Ideal S1024x2048 .bf16)
    (x4 : Vec Ideal S1x2048 .f32) (y : S512x1024.Idx) :
    k0_pay1 (F := Ideal) x0 x1 x2 x3 x4 y
      = out (fun k => x0 (ix2 (y 0) k)) (fun k => x1 (ix2 (0 : Fin 1) k)) (fun k => x2 (ix2 (0 : Fin 1) k))
          (fun k e => x3 (ix2 k e)) (fun e => x4 (ix2 (0 : Fin 1) e)) (y 1) := by
  obtain ⟨a, j, rfl⟩ : ∃ (a : Fin 512) (j : Fin 1024), y = ix2 a j := ⟨y 0, y 1, eq_ix2 y⟩
  exact Cert.KernelRow.pay_apply x0 x1 x2 x3 x4 a j

/-- What point t writes back is block t of the row function of the arrays the call finds. -/
theorem flushed5_eq (c : Dev nD) (t : Fin cfg0.N) :
    (dats m 0 c).flushed 5 t = ((cfg0.win 5).blk t).view.read (Elt Ideal)
      (rows (V m c main_v0) (V m c main_v1) (V m c main_v2) (V m c main_v4) (V m c main_v3)) := by
  show (cfg0.win 5).cut (grid0.coords t) ((dats m 0 c).after 5 t) = _
  rw [after0_5]
  unfold out0_5
  rw [View.canon_unit_zero hz]
  simp only [View.ld_unit_zero (S := S512x1024) hz, View.ld_unit_zero (S := S1x1024) hz,
    View.ld_unit_zero (S := S1024x2048) hz, View.ld_unit_zero (S := S1x2048) hz]
  obtain ⟨e00, e01, e50, e51, e10, e11, e20, e21, e30, e31, e40, e41⟩ := idx_facts t
  funext y
  show k0_pay1 (F := Ideal) (iblk m c 0 t) (iblk m c 1 t) (iblk m c 2 t) (iblk m c 3 t) (iblk m c 4 t) y
    = rows (V m c main_v0) (V m c main_v1) (V m c main_v2) (V m c main_v4) (V m c main_v3) (((cfg0.win 5).blk t).view.emb y)
  refine (pay_at (iblk m c 0 t) (iblk m c 1 t) (iblk m c 2 t) (iblk m c 3 t) (iblk m c 4 t) y).trans ?_
  unfold rows
  refine out_congr (funext fun k => ?_) (funext fun k => ?_) (funext fun k => ?_) (funext fun k => funext fun e => ?_)
    (funext fun e => ?_) ?_
  · show V m c main_v0 (((cfg0.win 0).blk t).view.emb (ix2 (y 0) k)) = V m c main_v0 (ix2 ((((cfg0.win 5).blk t).view.emb y) 0) k)
    refine congrArg (V m c main_v0) (funext fun ax => Fin.ext ?_)
    match ax with
    | ⟨0, _⟩ =>
      show win0_0.index t (0 : Fin 2) * 512 + 1 * (y 0).val = win0_5.index t (0 : Fin 2) * 512 + 1 * (y 0).val
      omega
    | ⟨1, _⟩ =>
      show win0_0.index t (1 : Fin 2) * 1024 + 1 * k.val = k.val
      omega
  · show V m c main_v1 (((cfg0.win 1).blk t).view.emb (ix2 (0 : Fin 1) k)) = V m c main_v1 (ix2 (0 : Fin 1) k)
    refine congrArg (V m c main_v1) (funext fun ax => Fin.ext ?_)
    match ax with
    | ⟨0, _⟩ =>
      show win0_1.index t (0 : Fin 2) * 1 + 1 * 0 = 0
      omega
    | ⟨1, _⟩ =>
      show win0_1.index t (1 : Fin 2) * 1024 + 1 * k.val = k.val
      omega
  · show V m c main_v2 (((cfg0.win 2).blk t).view.emb (ix2 (0 : Fin 1) k)) = V m c main_v2 (ix2 (0 : Fin 1) k)
    refine congrArg (V m c main_v2) (funext fun ax => Fin.ext ?_)
    match ax with
    | ⟨0, _⟩ =>
      show win0_2.index t (0 : Fin 2) * 1 + 1 * 0 = 0
      omega
    | ⟨1, _⟩ =>
      show win0_2.index t (1 : Fin 2) * 1024 + 1 * k.val = k.val
      omega
  · show V m c main_v4 (((cfg0.win 3).blk t).view.emb (ix2 k e)) = V m c main_v4 (ix2 k e)
    refine congrArg (V m c main_v4) (funext fun ax => Fin.ext ?_)
    match ax with
    | ⟨0, _⟩ =>
      show win0_3.index t (0 : Fin 2) * 1024 + 1 * k.val = k.val
      omega
    | ⟨1, _⟩ =>
      show win0_3.index t (1 : Fin 2) * 2048 + 1 * e.val = e.val
      omega
  · show V m c main_v3 (((cfg0.win 4).blk t).view.emb (ix2 (0 : Fin 1) e)) = V m c main_v3 (ix2 (0 : Fin 1) e)
    refine congrArg (V m c main_v3) (funext fun ax => Fin.ext ?_)
    match ax with
    | ⟨0, _⟩ =>
      show win0_4.index t (0 : Fin 2) * 1 + 1 * 0 = 0
      omega
    | ⟨1, _⟩ =>
      show win0_4.index t (1 : Fin 2) * 2048 + 1 * e.val = e.val
      omega
  · apply Fin.ext
    show (y 1).val = win0_5.index t (1 : Fin 2) * 1024 + 1 * (y 1).val
    omega

/-- An index of the result array is in point t's block iff each coordinate is in the block's range on its axis. -/
theorem mem_blk5 (t : Fin cfg0.N) (i : S32768x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v5).slice (win0_5.rect t)).set ↔ _
  rw [View.set_slice_whole, Rect.mem_set_unit]
  exact Iff.rfl

/-- Row r lies in the block of point r / 512: the 64 blocks cover the array. -/
theorem cover5 (i : S32768x1024.Idx) :
    ∃ t : Fin cfg0.N, (cfg0.win 5).flush t = true ∧ i ∈ ((cfg0.win 5).blk t).view.set := by
  have hi0 : (i 0).val < 32768 := (i 0).isLt
  have hi1 : (i 1).val < 1024 := (i 1).isLt
  have hN : (i 0).val / 512 < cfg0.N := by
    show (i 0).val / 512 < grid0.N
    rw [N_0]; omega
  refine ⟨⟨(i 0).val / 512, hN⟩, flush0_5 _, ?_⟩
  obtain ⟨-, -, e50, e51, -⟩ := idx_facts ⟨(i 0).val / 512, hN⟩
  rw [mem_blk5]
  intro a
  match a with
  | ⟨0, _⟩ =>
    show win0_5.index ⟨(i 0).val / 512, hN⟩ (0 : Fin 2) * 512 ≤ (i 0).val
      ∧ (i 0).val < win0_5.index ⟨(i 0).val / 512, hN⟩ (0 : Fin 2) * 512 + 512
    rw [e50]
    show (i 0).val / 512 * 512 ≤ (i 0).val ∧ (i 0).val < (i 0).val / 512 * 512 + 512
    omega
  | ⟨1, _⟩ =>
    show win0_5.index ⟨(i 0).val / 512, hN⟩ (1 : Fin 2) * 1024 ≤ (i 1).val
      ∧ (i 1).val < win0_5.index ⟨(i 0).val / 512, hN⟩ (1 : Fin 2) * 1024 + 1024
    rw [e51]
    omega

/-- The call's result array after the run. -/
theorem final5 (c : Dev nD) : (dats m 0 c).arrAt 5 cfg0.N
    = rows (V m c main_v0) (V m c main_v1) (V m c main_v2) (V m c main_v4) (V m c main_v3) :=
  (dats m 0 c).arrAt_eq_of_cover 5 _ (fun t _ => flushed5_eq m c t) cover5

end Cert.KernelRun

end
-- ==== Proof.KernelValue.lean ====
/-
  The idealized kernel's run with its result named: every weakly fair execution ends with the result array at the
  whole-result function of RowSpec.lean of the argument arrays, and the arguments unchanged.

  The call's result array holds the row function of every one of the 32768 rows (KernelRun.lean); the program's last
  line views it as 8 × 4096 × 1024, which reads row 4096·p + q at (p, q); and the arrays the call finds are the
  arguments viewed as 32768 × 1024, 1 × 1024 and 1 × 2048, the matrix with its format changed.
-/
import proofs.«110044_j53446573032203_1_alg».proof.Proof.KernelRun

set_option maxRecDepth 16384

noncomputable section

open scoped BigOperators

namespace Cert.KernelValue

open Cert.KernelIdeal Cert.KernelIdeal.Gen Idealize.ShloMosaic Idealize.ShloMosaic.TcCoe Idealize.SL.Sem
open Idealize.ShloMosaic.ValueIdx Cert.RowSpec Cert.KernelRun
open Idealize.ShloMosaic.Pipeline (Dat)

variable (m : (ℓ : Loc nD τ sig) → Buf (Elt Ideal) ℓ) (ρ : Dev nD → PrngReg)

/-- The result of the program, as a function of the argument arrays. -/
abbrev result (c : Dev nD) : S8x4096x1024.Idx → EReal :=
  blockOut (m ((c : Thread nD τ).loc main_arg0)) (m ((c : Thread nD τ).loc main_arg1)) (m ((c : Thread nD τ).loc main_arg2))
    (m ((c : Thread nD τ).loc main_arg3)) (m ((c : Thread nD τ).loc main_arg4))

/-- The rows of the arrays the call finds, viewed as 8 × 4096 × 1024, are the whole-result function of the arguments. -/
theorem rows_view (c : Dev nD) :
    shapeCast S8x4096x1024 (rows (V m c main_v0) (V m c main_v1) (V m c main_v2) (V m c main_v4) (V m c main_v3))
      shapeCasts_S32768x1024_S8x4096x1024 = result m c := by
  funext i
  obtain ⟨p, q, j, rfl⟩ : ∃ (p : Fin 8) (q : Fin 4096) (j : Fin 1024), i = ix3 p q j := ⟨i 0, i 1, i 2, eq_ix3 i⟩
  have hr : p.val * 4096 + q.val < 32768 := by have := p.isLt; have := q.isLt; omega
  refine (shapeCast_apply _ _ (ix3 p q j) (ix2 (⟨p.val * 4096 + q.val, hr⟩ : Fin 32768) j) (by
    rw [Shape.rowMajor_val_two, Shape.rowMajor_val_three]; rfl)).trans ?_
  unfold rows result blockOut
  refine out_congr (funext fun k => ?_) (funext fun k => ?_) (funext fun k => ?_) (funext fun k => funext fun e => ?_)
    (funext fun e => ?_) rfl
  · rw [V_v0]
    exact shapeCast_apply _ _ (ix2 (⟨p.val * 4096 + q.val, hr⟩ : Fin 32768) k) (ix3 p q k) (by
      rw [Shape.rowMajor_val_two, Shape.rowMajor_val_three]; rfl)
  · rw [V_v1]; exact shapeCast_a_1a_apply _ _ (0 : Fin 1) k
  · rw [V_v2]; exact shapeCast_a_1a_apply _ _ (0 : Fin 1) k
  · rw [V_v4]
  · rw [V_v3]; exact shapeCast_a_1a_apply _ _ (0 : Fin 1) e

/-- The program's result buffer after the lines that follow the call: the call's result array viewed as
    8 × 4096 × 1024. -/
theorem tail_v6 (c : Dev nD) :
    Pipeline.afterTail₀ cfgs (dats m) 0 (V0 m) [hostOps1] c main_v6
      = shapeCast S8x4096x1024 ((dats m 0 c).arrAt 5 cfg0.N) shapeCasts_S32768x1024_S8x4096x1024 := by
  unfold Pipeline.afterTail₀
  show StableHlo.after hostOps1 _ (Proc.devRef .tc main_v6) = _
  after_results
  exact congrArg (fun A => shapeCast S8x4096x1024 A shapeCasts_S32768x1024_S8x4096x1024)
    (Pipeline.withArrays_arr spec0 launch0.win.arr_inj c (V0 m c) (fun w => (dats m 0 c).arrAt w cfg0.N) 5)

/-- THE RUN, READ: every weakly fair execution of the idealized kernel's program terminates with the result array at the
    whole-result function of the argument arrays, and the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v6 (Pipeline.mem_restRefs_of main_v6 (by decide) (by decide))).trans (tail_v6 m c)).trans
        ((congrArg (fun A => shapeCast S8x4096x1024 A shapeCasts_S32768x1024_S8x4096x1024) (final5 m c)).trans (rows_view m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelValue

end
-- ==== Proof.lean ====
/-
  A gated linear block over rows of 1024 entries — each row centred and scaled by its reciprocal standard deviation,
  scaled and shifted entry by entry, projected to 2048 columns, and the first 1024 columns gated by the logistic of the
  last 1024, the result added back to the row — computed by a kernel over blocks of 512 rows and by a reference over
  the whole 8 × 4096 × 1024 array. On the extended reals both are ONE function of the arguments, the row function of
  Proof/RowSpec.lean applied to every row: the kernel's lane sums and the reference's sums over the last axis are the
  same sums over a row, the kernel's matrix product into the zero accumulator and the reference's contraction are the
  same sum over the contracted coordinate, a change of float format is the identity, and the kernel's logistic is the
  reference's quotient 1 / (1 + exp (−·)). No law of arithmetic beyond 0 + s = s is used, so the precondition is never
  opened.

  Proof/RefRow.lean reads the reference's result at an entry; Proof/KernelRow.lean the kernel body's stored value at an
  entry of a block; Proof/KernelRun.lean and Proof/KernelValue.lean carry the blocks to the whole result array.
-/
import proofs.«110044_j53446573032203_1_alg».proof.Defs
import proofs.«110044_j53446573032203_1_alg».proof.Proof.Gen.Kernel
import proofs.«110044_j53446573032203_1_alg».proof.Proof.Gen.Kernel.Skeleton
import proofs.«110044_j53446573032203_1_alg».proof.Proof.Gen.Kernel.Launch
import proofs.«110044_j53446573032203_1_alg».proof.Proof.Gen.Kernel.Points
import proofs.«110044_j53446573032203_1_alg».proof.Proof.Gen.Kernel.Frame
import proofs.«110044_j53446573032203_1_alg».proof.Proof.Gen.KernelIdeal
import proofs.«110044_j53446573032203_1_alg».proof.Proof.Gen.KernelIdeal.Skeleton
import proofs.«110044_j53446573032203_1_alg».proof.Proof.Gen.KernelIdeal.Launch
import proofs.«110044_j53446573032203_1_alg».proof.Proof.Gen.KernelIdeal.Points
import proofs.«110044_j53446573032203_1_alg».proof.Proof.Gen.KernelIdeal.Frame
import proofs.«110044_j53446573032203_1_alg».proof.Proof.Gen.ReferenceIdeal
import proofs.«110044_j53446573032203_1_alg».proof.Proof.Gen.ReferenceIdeal.Run
import proofs.«110044_j53446573032203_1_alg».proof.Proof.Gen.ReferenceIdeal.Read
import proofs.«110044_j53446573032203_1_alg».proof.Proof.Gen.Pre_finite_inputs
import proofs.«110044_j53446573032203_1_alg».proof.Proof.RefRow
import proofs.«110044_j53446573032203_1_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the result array at the whole-result
    function of the arguments: the kernel by its run read block by block, the reference by its run read operation by
    operation. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.RefRow.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
